-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000 : Shape := ⟨1, ![20000000]⟩
abbrev S2x20000000 : Shape := ⟨2, ![2, 20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : FVec F S20000000 .f32) (main_arg1 : IVec S2x20000000 32) : IVec S_ 1 :=
  let main_v0 : FVec F S20000000 .f32 := Host.absf main_arg0
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S20000000 : Shape := ⟨1, ![20000000]⟩
abbrev S2x20000000 : Shape := ⟨2, ![2, 20000000]⟩
abbrev S_ : Shape := ⟨0, ![]⟩
abbrev S20971520 : Shape := ⟨1, ![20971520]⟩
abbrev S163840x128 : Shape := ⟨2, ![163840, 128]⟩
abbrev S1x1 : Shape := ⟨2, ![1, 1]⟩
abbrev S16384x128 : Shape := ⟨2, ![16384, 128]⟩
abbrev S1x16384x128 : Shape := ⟨3, ![1, 16384, 128]⟩
abbrev S1 : Shape := ⟨1, ![1]⟩
abbrev S1x1x1 : Shape := ⟨3, ![1, 1, 1]⟩

abbrev nBuf : Space → Nat
  | .hbm => 8
  | .vmem => 4
  | .smem => 0
  | _ => 0

abbrev bufTy : (tb : Table) → Fin (tcTables nBuf tb) → BufTy
  | .hbm, ⟨0, _⟩ => ⟨S20000000, .f32⟩
  | .hbm, ⟨1, _⟩ => ⟨S2x20000000, .i32⟩
  | .hbm, ⟨2, _⟩ => ⟨S_, .i32⟩
  | .hbm, ⟨3, _⟩ => ⟨S_, .f32⟩
  | .hbm, ⟨4, _⟩ => ⟨S20971520, .f32⟩
  | .hbm, ⟨5, _⟩ => ⟨S163840x128, .f32⟩
  | .hbm, ⟨6, _⟩ => ⟨S1x1, .f32⟩
  | .hbm, ⟨7, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S1x1, .f32⟩
  | .local _ .vmem, ⟨3, _⟩ => ⟨S1x1, .f32⟩
  | _, _ => ⟨S20000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  pads_S20000000_S20971520_09715200 : S20000000.Pads (![0] : Fin 1 → Nat) ![971520] ![0] S20971520
  h_S_ : 0 < S_.numel
  shapeCasts_S20971520_S163840x128 : S20971520.ShapeCasts S163840x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S1x16384x128 : S16384x128.ShapeCasts S1x16384x128
  reduces_S1x16384x128_S1 : S1x16384x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S163840x128.size a
  hwx0_0 : ∀ i : grid0.Coords, EltTy.bits .f32 = 32 ∨ (Rect.block (s := S163840x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v1) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S20000000 : Shape := ⟨1, ![20000000]⟩
abbrev S2x20000000 : Shape := ⟨2, ![2, 20000000]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S20000000, .f32⟩
  | .hbm, ⟨1, _⟩ => ⟨S2x20000000, .i32⟩
  | .hbm, ⟨2, _⟩ => ⟨S_, .f32⟩
  | .hbm, ⟨3, _⟩ => ⟨S_, .f32⟩
  | _, _ => ⟨S20000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  reducesTo_S20000000_S_d0 : S20000000.ReducesTo [0] S_
  h_S_ : 0 < S_.numel

variable [Facts₀]

class Facts : Prop extends Facts₀ where

variable [Facts]
-- ==== Proof.KernelPieces.lean ====
/-
  What one run of the kernel body leaves behind, case by case, as values. The body keeps a one-entry accumulator in a
  scratch buffer: at the first grid point it is reset to zero; at every point the sum of the point's [16384, 128] block
  is added to it; at the last point its contents are copied to the [1, 1] output. So each case leaves in the scratch
  the payload `k0_pay2 acc blk` (the old accumulator plus the block's sum), with `acc` the zero entry `k0_pay1` at the
  first point, and the last point leaves the same value in the output's staging buffer.
-/
import proofs.«172360_j73710228734303_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Points 1 to 8: the body stores into the scratch once, the scratch's old contents plus the block's sum. -/
theorem scratch_B (c : Dev nD) (i : grid0.Coords) (a1 : Memref sig .tc .vmem S16384x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S16384x128 .f32) (xs : Vec F S1x1 .f32) :
    sout0_B_0 c i a1 h1 a2 h2 a3 h3 hc0 hc1 x xs = k0_pay2 xs x := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S1x1) hz,
    View.ld_unit_zero (S := S16384x128) hz]

/-- Point 0: the body first stores the zero entry into the scratch, reads it back, and then stores that plus the
    block's sum; the later store covers the earlier. -/
theorem scratch_A (c : Dev nD) (i : grid0.Coords) (a1 : Memref sig .tc .vmem S16384x128 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S16384x128 .f32) :
    sout0_A_0 c i a1 h1 a2 h2 a3 h3 hc0 hc1 x = k0_pay2 (k0_pay1 (F := F)) x := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S16384x128) hz]

/-- Point 9: the scratch is updated as at points 1 to 8, -/
theorem scratch_C (c : Dev nD) (i : grid0.Coords) (a1 : Memref sig .tc .vmem S16384x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S16384x128 .f32) (xs : Vec F S1x1 .f32) :
    sout0_C_0 c i a1 h1 a2 h2 a3 h3 hc0 hc1 x xs = k0_pay2 xs x := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S1x1) hz,
    View.ld_unit_zero (S := S16384x128) hz]

/-- and the output's staging entry receives the scratch's new contents, read back after that store. -/
theorem out_C (c : Dev nD) (i : grid0.Coords) (a1 : Memref sig .tc .vmem S16384x128 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S16384x128 .f32) (xs : Vec F S1x1 .f32) :
    out0_C_1 c i a1 h1 a2 h2 a3 h3 hc0 hc1 x xs = k0_pay2 xs x := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz, View.readCov_unit_zero (S := S1x1) _ hz]
  simp only [View.readAt_eq_ld, h1.read_unread, h3.read_unread, View.ld_unit_zero (S := S1x1) hz,
    View.ld_unit_zero (S := S16384x128) hz]

end Cert.KernelIdeal.Pieces

end
-- ==== Proof.LibSumReindex.lean ====
/-
  Three re-indexings of a finite sum over the multi-indices of a shape, valued in any commutative additive monoid
  (the extended reals among them), generic in the sizes:

    sum_shapeCast   a shape cast permutes the entries, so it keeps their sum;
    sum_pad_zero    a pad whose padding value is zero adds only zeros, so it keeps the operand's sum
                    (any rank, any low / high / interior padding);
    sum_rowBlocks   the sum over an [T·R, C] matrix is the sum, over its T row blocks of R rows, of each block's sum.
-/
import Idealize.ShloMosaic.PureOps
import Idealize.ShloMosaic.Lib.KernelVsHost
import Mathlib.Algebra.BigOperators.Fin
import Mathlib.Algebra.BigOperators.Group.Finset.Basic

namespace Idealize.ShloMosaic.SumReindex

open Idealize.ShloMosaic

variable {M : Type} [AddCommMonoid M]

/-- A shape cast lists the same entries in row-major order under another shape: the matching of the two shapes'
    multi-indices is a bijection, so the total is unchanged. -/
theorem sum_shapeCast {s t : Shape} (x : s.Idx → M) (h : s.ShapeCasts t) :
    ∑ j : t.Idx, shapeCast t x h j = ∑ k : s.Idx, x k := by
  unfold shapeCast
  exact Equiv.sum_comp (Shape.reshapeEquiv h) x

section Pad

variable {s t u : Shape} (lo hi interior : Fin s.rank → Nat)

/-- Where operand index `k` sits in the padded shape: on each axis after the low padding, `interior + 1` apart. -/
def padIdx (h : s.Pads lo hi interior t) (k : s.Idx) : t.Idx := fun b =>
  ⟨lo (b.cast h.1.symm) + (k (b.cast h.1.symm)).val * (interior (b.cast h.1.symm) + 1), by
    have e : t.size ((b.cast h.1.symm).cast h.1) = t.size b := rfl
    have hb := h.2 (b.cast h.1.symm)
    rw [e] at hb
    rw [hb]
    have hk := (k (b.cast h.1.symm)).isLt
    generalize (k (b.cast h.1.symm)).val = kv at hk ⊢
    generalize s.size (b.cast h.1.symm) = n at hk hb ⊢
    generalize interior (b.cast h.1.symm) = g
    generalize lo (b.cast h.1.symm) = l
    generalize hi (b.cast h.1.symm) = r
    obtain ⟨n', rfl⟩ : ∃ n', n = n' + 1 := ⟨n - 1, by omega⟩
    have h1 : kv * (g + 1) ≤ n' * (g + 1) := Nat.mul_le_mul_right _ (by omega)
    have h2 : n' * (g + 1) = n' + g * n' := by ring
    have h3 : n' + 1 - 1 = n' := by omega
    rw [h3]; omega⟩

theorem padIdx_val (h : s.Pads lo hi interior t) (k : s.Idx) (a : Fin s.rank) :
    (padIdx lo hi interior h k (a.cast h.1)).val = lo a + (k a).val * (interior a + 1) := rfl

theorem padIdx_injective (h : s.Pads lo hi interior t) : Function.Injective (padIdx lo hi interior h) := by
  intro k k' hk
  funext a
  have h1 := congrArg (fun f : t.Idx => (f (a.cast h.1)).val) hk
  simp only [padIdx_val] at h1
  exact Fin.ext (Nat.eq_of_mul_eq_mul_right (Nat.succ_pos _) (Nat.add_left_cancel h1))

/-- A pad by zeros keeps the sum: the operand's entries sit at distinct places of the result, and every other place
    holds the padding value, zero. -/
theorem sum_pad_zero (x : s.Idx → M) (v : u.Idx → M) (h : s.Pads lo hi interior t) (hu : 0 < u.numel)
    (hv : v (Shape.Idx.first hu) = 0) :
    ∑ j : t.Idx, pad t lo hi interior x v h hu j = ∑ k : s.Idx, x k := by
  classical
  let ι : s.Idx ↪ t.Idx := ⟨padIdx lo hi interior h, padIdx_injective lo hi interior h⟩
  have hout : ∀ j : t.Idx, j ∉ Finset.univ.map ι → pad t lo hi interior x v h hu j = 0 := by
    intro j hj
    unfold pad
    split
    · rename_i hin
      exfalso
      apply hj
      rw [Finset.mem_map]
      refine ⟨fun a => ⟨((j (a.cast h.1)).val - lo a) / (interior a + 1), (hin a).2.2⟩, Finset.mem_univ _, ?_⟩
      funext b
      apply Fin.ext
      show lo (b.cast h.1.symm) + ((j ((b.cast h.1.symm).cast h.1)).val - lo (b.cast h.1.symm)) / (interior (b.cast h.1.symm) + 1)
        * (interior (b.cast h.1.symm) + 1) = (j b).val
      have hb := hin (b.cast h.1.symm)
      have e : (j ((b.cast h.1.symm).cast h.1)).val = (j b).val := rfl
      rw [e] at hb ⊢
      rw [Nat.div_mul_cancel (Nat.dvd_of_mod_eq_zero hb.2.1)]
      omega
    · exact hv
  calc ∑ j : t.Idx, pad t lo hi interior x v h hu j
      = ∑ j ∈ Finset.univ.map ι, pad t lo hi interior x v h hu j :=
        (Finset.sum_subset (Finset.subset_univ _) fun j _ hj => hout j hj).symm
    _ = ∑ k : s.Idx, pad t lo hi interior x v h hu (ι k) := Finset.sum_map _ _ _
    _ = ∑ k : s.Idx, x k := Finset.sum_congr rfl fun k _ =>
        pad_apply_of_inside lo hi interior x v h hu (ι k) k fun a => padIdx_val lo hi interior h k a

end Pad

/-- The sum over an `[n, C]` matrix with `n = T · R` rows, block by block: `e t y` is the matrix index of entry `y`
    of row block `t` (row `t · R + y₀`, column `y₁`; the blocks are numbered through any type in bijection with
    `Fin T`), and every matrix index is exactly one such. -/
theorem sum_rowBlocks {ι : Type} [Fintype ι] (T R C n : Nat) (hn : n = T * R) (σ : ι ≃ Fin T)
    (e : ι → (⟨2, ![R, C]⟩ : Shape).Idx → (⟨2, ![n, C]⟩ : Shape).Idx)
    (h0 : ∀ t y, (e t y 0).val = (σ t).val * R + (y 0).val) (h1 : ∀ t y, (e t y 1).val = (y 1).val)
    (f : (⟨2, ![n, C]⟩ : Shape).Idx → M) :
    ∑ i, f i = ∑ t : ι, ∑ y : (⟨2, ![R, C]⟩ : Shape).Idx, f (e t y) := by
  subst hn
  rw [← Fintype.sum_prod_type' (f := fun t y => f (e t y))]
  symm
  refine Fintype.sum_bijective (fun p : ι × (⟨2, ![R, C]⟩ : Shape).Idx => e p.1 p.2) ⟨?_, ?_⟩ _ _ fun _ => rfl
  · rintro ⟨t, y⟩ ⟨t', y'⟩ hp
    have e0 : (e t y 0).val = (e t' y' 0).val := congrArg (fun g : (⟨2, ![T * R, C]⟩ : Shape).Idx => (g 0).val) hp
    have e1 : (e t y 1).val = (e t' y' 1).val := congrArg (fun g : (⟨2, ![T * R, C]⟩ : Shape).Idx => (g 1).val) hp
    rw [h0, h0] at e0
    rw [h1, h1] at e1
    have hy : (y 0).val < R := (y 0).isLt
    have hy' : (y' 0).val < R := (y' 0).isLt
    have hq : (σ t).val = (σ t').val := by
      have a1 : ((σ t).val * R + (y 0).val) / R = (σ t).val := by
        rw [Nat.mul_comm, Nat.mul_add_div (by omega), Nat.div_eq_of_lt hy, Nat.add_zero]
      have a2 : ((σ t').val * R + (y' 0).val) / R = (σ t').val := by
        rw [Nat.mul_comm, Nat.mul_add_div (by omega), Nat.div_eq_of_lt hy', Nat.add_zero]
      rw [← a1, ← a2, e0]
    have ht : t = t' := σ.injective (Fin.ext hq)
    subst ht
    have hy0 : (y 0).val = (y' 0).val := by omega
    have : y = y' := funext fun a => Fin.ext (by
      match a with
      | ⟨0, _⟩ => exact hy0
      | ⟨1, _⟩ => exact e1)
    rw [this]
  · intro i
    have hi0 : (i 0).val < T * R := (i 0).isLt
    have hi1 : (i 1).val < C := (i 1).isLt
    have hR : 0 < R := Nat.pos_of_ne_zero fun hR => by subst hR; omega
    have hq : (i 0).val / R < T := (Nat.div_lt_iff_lt_mul hR).mpr hi0
    let y : (⟨2, ![R, C]⟩ : Shape).Idx := fun a => match a with
      | ⟨0, _⟩ => ⟨(i 0).val % R, Nat.mod_lt _ hR⟩
      | ⟨1, _⟩ => ⟨(i 1).val, hi1⟩
    refine ⟨(σ.symm ⟨(i 0).val / R, hq⟩, y), funext fun a => Fin.ext ?_⟩
    match a with
    | ⟨0, _⟩ =>
      show (e (σ.symm ⟨(i 0).val / R, hq⟩) y 0).val = (i 0).val
      rw [h0, Equiv.apply_symm_apply]
      show (i 0).val / R * R + (i 0).val % R = (i 0).val
      exact Nat.div_add_mod' _ _
    | ⟨1, _⟩ =>
      show (e (σ.symm ⟨(i 0).val / R, hq⟩) y 1).val = (i 1).val
      rw [h1]
      rfl

end Idealize.ShloMosaic.SumReindex
-- ==== Proof.KernelPayload.lean ====
/-
  The body's two stored values read over the extended reals: the reset value is zero, and the update is the
  accumulator's entry plus the total of the point's [16384, 128] block (the reduction runs over both axes of the block,
  so its one entry is the sum of all 2,097,152 entries).
-/
import proofs.«172360_j73710228734303_1_alg».proof.Proof.Gen.KernelIdeal.Skeleton
import proofs.«172360_j73710228734303_1_alg».proof.Proof.LibSumReindex
import Idealize.ShloMosaic.PureOps.Ideal.Laws
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.SumReindex

/-- The reset stores the zero entry. -/
theorem pay1_apply (i : S1x1.Idx) : k0_pay1 (F := Ideal) i = (0 : EReal) := by
  unfold k0_pay1
  rw [shapeCast_self]
  exact Ideal.ofBits_zero_f32

/-- The end of the update over ANY reduced one-entry vector `r`: the accumulator's entry plus `r`'s entry. -/
theorem tail_apply (acc : Vec Ideal S1x1 .f32) (r : FVec Ideal S1 .f32) (i : S1x1.Idx)
    (h8 : S1.ShapeCasts S1x1x1) (hp : ∀ a, (![0, 0, 0] : Fin 3 → Nat) a < S1x1x1.size a) (h : S1x1.ShapeCasts S1x1) :
    shapeCast S1x1 (addf acc (broadcast S1x1 (extractAt ![0, 0, 0] (shapeCast S1x1x1 r h8) hp))) h i
      = (acc i : EReal) + r (Shape.reshapeEquiv h8 (fun a => ⟨(![0, 0, 0] : Fin 3 → Nat) a, hp a⟩)) := by
  rw [shapeCast_self]
  rfl

/-- The reduction over the two long axes of a block cast to [1, 16384, 128] is the block's total: the result has one
    entry, and the cast only renames the indices. -/
theorem reduce_apply (blk : Vec Ideal S16384x128 .f32) (h5 : S16384x128.ShapeCasts S16384x128)
    (h6 : S16384x128.ShapeCasts S1x16384x128) (hr : S1x16384x128.Reduces [1, 2] S1)
    (hφ : FKind.Formats .f32) (hacc : (0x00000000#32 : BitVec 32) = FKind.add.neutral .f32 hφ) (j : S1.Idx) :
    multiReduction (F := Ideal) .add [1, 2] S1 (shapeCast S1x16384x128 (shapeCast S16384x128 blk h5) h6) 0x00000000#32 hr hφ hacc j
      = ∑ y : S16384x128.Idx, (blk y : EReal) :=
  (Ideal.multiReduction_add_total _ _ hr (fun b => by fin_cases b; rfl) hφ hacc j).trans
    ((sum_shapeCast _ h6).trans (congrArg (fun v : S16384x128.Idx → EReal => ∑ k, v k) (shapeCast_self blk h5)))

/-- The update: the accumulator's entry plus the block's total. -/
theorem pay2_apply (acc : Vec Ideal S1x1 .f32) (blk : Vec Ideal S16384x128 .f32) (i : S1x1.Idx) :
    k0_pay2 (F := Ideal) acc blk i = (acc i : EReal) + ∑ y : S16384x128.Idx, (blk y : EReal) := by
  unfold k0_pay2
  exact (tail_apply acc _ i _ _ _).trans
    (congrArg (fun z : EReal => (acc i : EReal) + z) (reduce_apply blk _ _ _ _ _ _))

end Cert.KernelIdeal.Payload

end
-- ==== Proof.KernelInput.lean ====
/-
  What the region reads. Before the launch the host pads the 20,000,000 values with 971,520 zeros and lays the result out
  as a [163840, 128] matrix, row-major; the kernel's window cuts that matrix into ten blocks of 16384 rows. So the
  ten blocks' totals add up to the matrix's total, the matrix's total is the padded vector's, and the padding adds
  only zeros: the blocks' totals add up to the sum of the values.
-/
import proofs.«172360_j73710228734303_1_alg».proof.Proof.Gen.KernelIdeal.Frame
import proofs.«172360_j73710228734303_1_alg».proof.Proof.LibSumReindex
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Input

open Cert.KernelIdeal Cert.KernelIdeal.Gen Idealize.ShloMosaic.SumReindex

variable (m : (ℓ : Loc nD τ sig) → Buf (Elt Ideal) ℓ)

/-- The values, as the launch finds them. -/
abbrev vals (c : Dev nD) : S20000000.Idx → EReal := m ((c : Thread nD τ).loc main_arg0)

/-- The values followed by 971,520 copies of the converted integer zero. -/
abbrev padded (c : Dev nD) : S20971520.Idx → EReal :=
  pad S20971520 ![0] ![971520] ![0] (vals m c) (sitofp (F := Ideal) .f32 (constantI S_ 32 0#32))
    pads_S20000000_S20971520_09715200 h_S_

/-- The padded vector as a [163840, 128] matrix. -/
abbrev matrix (c : Dev nD) : S163840x128.Idx → EReal :=
  shapeCast S163840x128 (padded m c) shapeCasts_S20971520_S163840x128

/-- The region finds that matrix in the window's array. -/
theorem V_main_v1 (c : Dev nD) : (V m c main_v1 : S163840x128.Idx → EReal) = matrix m c := by
  dsimp only [V, V0]
  simp only [hostOps0, hostOps0_1, hostOps0_2, List.flatten_cons, List.flatten_nil, List.append_nil, List.cons_append,
    List.nil_append]
  after_results
  rfl

/-- The padding value, the integer zero converted, is zero. -/
theorem padval_zero : sitofp (F := Ideal) .f32 (constantI S_ 32 0#32) (Shape.Idx.first h_S_) = (0 : EReal) := by
  show (((BitVec.toInt (0#32) : ℤ) : ℝ) : EReal) = 0
  rw [BitVec.toInt_zero]
  simp

/-- The matrix's total is the sum of the values. -/
theorem sum_matrix (c : Dev nD) : ∑ i : S163840x128.Idx, matrix m c i = ∑ k : S20000000.Idx, vals m c k :=
  (sum_shapeCast _ _).trans (sum_pad_zero _ _ _ _ _ _ _ padval_zero)

/-- Entry `y` of row block `t`, as a matrix index: row `16384 t + y₀`, column `y₁`. -/
def bidx (t : Fin cfg0.N) (y : S16384x128.Idx) : S163840x128.Idx := fun a =>
  match a with
  | ⟨0, _⟩ => ⟨t.val * 16384 + (y 0).val, by
      have h1 : (y 0).val < 16384 := (y 0).isLt
      have h2 : t.val < 10 := lt_of_lt_of_eq t.isLt (show cfg0.N = 10 from N_0)
      show _ < 163840
      omega⟩
  | ⟨1, _⟩ => ⟨(y 1).val, (y 1).isLt⟩

/-- The window's index map: block `t` starts at block row `t`, block column 0. -/
theorem index_facts : ∀ t : Fin cfg0.N, win0_0.index t 0 = t.val ∧ win0_0.index t 1 = 0 :=
  (by decide +kernel : ∀ t : Fin grid0.N, win0_0.index t 0 = t.val ∧ win0_0.index t 1 = 0)

/-- The block the body loads at point `t`, at its literal shape. -/
abbrev blk (c : Dev nD) (t : Fin cfg0.N) : Vec Ideal S16384x128 .f32 := iblk m c 0 t

/-- That block, entry by entry, is the matrix at the block's rows. -/
theorem blk_apply (c : Dev nD) (t : Fin cfg0.N) (y : S16384x128.Idx) :
    (blk m c t y : EReal) = matrix m c (bidx t y) := by
  show iblk m c 0 t y = _
  unfold iblk
  rw [View.read_apply]
  show V m c main_v1 _ = _
  rw [V_main_v1]
  refine congrArg (matrix m c) (funext fun a => Fin.ext ?_)
  match a with
  | ⟨0, _⟩ =>
    show win0_0.index t 0 * 16384 + 1 * (y 0).val = t.val * 16384 + (y 0).val
    rw [(index_facts t).1]; omega
  | ⟨1, _⟩ =>
    show win0_0.index t 1 * 128 + 1 * (y 1).val = (y 1).val
    rw [(index_facts t).2]; omega

/-- The sum of the values. -/
def sumVals (c : Dev nD) : EReal := ∑ k : S20000000.Idx, vals m c k

theorem sumVals_def (c : Dev nD) : sumVals m c = ∑ k : S20000000.Idx, vals m c k := rfl

/-- The ten blocks' totals add up to the sum of the values. -/
theorem sum_blocks (c : Dev nD) :
    ∑ t : Fin cfg0.N, ∑ y : S16384x128.Idx, (blk m c t y : EReal) = sumVals m c := by
  unfold sumVals
  rw [← sum_matrix m c]
  rw [sum_rowBlocks 10 16384 128 163840 (by norm_num) (finCongr (show cfg0.N = 10 from N_0)) bidx
    (fun t y => rfl) (fun t y => rfl) (matrix m c)]
  exact Finset.sum_congr rfl fun t _ => Finset.sum_congr rfl fun y _ => blk_apply m c t y

end Cert.KernelIdeal.Input

end
-- ==== Proof.KernelAcc.lean ====
/-
  The accumulation across the grid. After point `n` the scratch entry holds the total of blocks 0 to `n`: the first point
  leaves zero plus block 0's total, every later point adds its block's total to what the point before left. The last
  point copies the scratch entry to the [1, 1] output, whose block is written back only there; the host then recasts
  that one-entry array as the scalar result. So the result is the total of all ten blocks.
-/
import proofs.«172360_j73710228734303_1_alg».proof.Proof.KernelPieces
import proofs.«172360_j73710228734303_1_alg».proof.Proof.KernelPayload
import proofs.«172360_j73710228734303_1_alg».proof.Proof.KernelInput

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Input

variable (m : (ℓ : Loc nD τ sig) → Buf (Elt Ideal) ℓ) (ρ : Dev nD → PrngReg)

/-- The total of the block at point `t`. -/
def blkSum (c : Dev nD) (t : Fin cfg0.N) : EReal := ∑ y : S16384x128.Idx, (blk m c t y : EReal)

/-- The total of the blocks at points 0 to `n`. -/
def runSum (c : Dev nD) (n : ℕ) (hn : n < cfg0.N) : EReal :=
  ∑ s : Fin (n + 1), blkSum m c ⟨s.val, lt_of_lt_of_le s.isLt hn⟩

theorem runSum_zero (c : Dev nD) (hn : 0 < cfg0.N) : runSum m c 0 hn = blkSum m c ⟨0, hn⟩ := by
  unfold runSum
  rw [Fin.sum_univ_one]
  rfl

theorem runSum_succ (c : Dev nD) (n : ℕ) (hn : n + 1 < cfg0.N) :
    runSum m c (n + 1) hn = runSum m c n (Nat.lt_of_succ_lt hn) + blkSum m c ⟨n + 1, hn⟩ := by
  unfold runSum
  rw [Fin.sum_univ_castSucc]
  rfl

/-- The total of all the blocks. -/
def total (c : Dev nD) : EReal := ∑ t : Fin cfg0.N, blkSum m c t

/-- At the last point the running total is the whole total. -/
theorem runSum_last (c : Dev nD) (n : ℕ) (hn : n < cfg0.N) (h : n + 1 = cfg0.N) : runSum m c n hn = total m c := by
  unfold runSum total
  exact Fintype.sum_equiv (finCongr h) _ _ fun s => rfl

/-- THE INVARIANT: after point `n` the scratch entry is the total of blocks 0 to `n`. -/
theorem scratch_after (c : Dev nD) : ∀ (n : ℕ) (hn : n < cfg0.N) (i : S1x1.Idx),
    ((outsAt0 m c n hn).2 i : EReal) = runSum m c n hn
  | 0, hn, i => by
    rw [outsAt0_A m c ⟨0, hn⟩ rfl (by dsimp only; omega)]
    dsimp only
    refine (congrFun (Pieces.scratch_A (F := Ideal) c (grid0.coords ⟨0, hn⟩) (ms0_0 ⟨0, hn⟩) (hs0_0 ⟨0, hn⟩) (ms0_1 ⟨0, hn⟩)
      (hs0_1 ⟨0, hn⟩) scM0_0 (Memref.isWhole_whole _) _ _ (blk m c ⟨0, hn⟩)) i).trans ?_
    rw [Payload.pay2_apply, Payload.pay1_apply, zero_add, runSum_zero]
    rfl
  | n + 1, hn, i => by
    have hN : cfg0.N = 10 := N_0
    have hB : ¬(⟨n + 1, hn⟩ : Fin cfg0.N).val % 10 = 0 := by dsimp only; omega
    by_cases h9 : (⟨n + 1, hn⟩ : Fin cfg0.N).val % 10 = 9
    · rw [outsAt0_C m c ⟨n + 1, hn⟩ hB h9]
      dsimp only
      refine (congrFun (Pieces.scratch_C (F := Ideal) c (grid0.coords ⟨n + 1, hn⟩) (ms0_0 ⟨n + 1, hn⟩) (hs0_0 ⟨n + 1, hn⟩)
        (ms0_1 ⟨n + 1, hn⟩) (hs0_1 ⟨n + 1, hn⟩) scM0_0 (Memref.isWhole_whole _) _ _ (blk m c ⟨n + 1, hn⟩)
        (outsAt0 m c n (Nat.lt_of_succ_lt hn)).2) i).trans ?_
      rw [Payload.pay2_apply, scratch_after c n (Nat.lt_of_succ_lt hn) i, runSum_succ]
      rfl
    · rw [outsAt0_B m c ⟨n + 1, hn⟩ hB h9]
      dsimp only
      refine (congrFun (Pieces.scratch_B (F := Ideal) c (grid0.coords ⟨n + 1, hn⟩) (ms0_0 ⟨n + 1, hn⟩) (hs0_0 ⟨n + 1, hn⟩)
        (ms0_1 ⟨n + 1, hn⟩) (hs0_1 ⟨n + 1, hn⟩) scM0_0 (Memref.isWhole_whole _) _ _ (blk m c ⟨n + 1, hn⟩)
        (outsAt0 m c n (Nat.lt_of_succ_lt hn)).2) i).trans ?_
      rw [Payload.pay2_apply, scratch_after c n (Nat.lt_of_succ_lt hn) i, runSum_succ]
      rfl

/-- At the last point the output's staging entry receives the same running total. -/
theorem out_last (c : Dev nD) (t : Fin cfg0.N) (h9 : t.val % 10 = 9) (i : S1x1.Idx) :
    ((outsAt0 m c t.val t.isLt).1 i : EReal) = runSum m c t.val t.isLt := by
  obtain ⟨n, hn⟩ := t
  cases n with
  | zero => exact absurd h9 (by dsimp only; omega)
  | succ n =>
    have hN : cfg0.N = 10 := N_0
    have hB : ¬(⟨n + 1, hn⟩ : Fin cfg0.N).val % 10 = 0 := by dsimp only; omega
    rw [outsAt0_C m c ⟨n + 1, hn⟩ hB h9]
    dsimp only
    refine (congrFun (Pieces.out_C (F := Ideal) c (grid0.coords ⟨n + 1, hn⟩) (ms0_0 ⟨n + 1, hn⟩) (hs0_0 ⟨n + 1, hn⟩)
      (ms0_1 ⟨n + 1, hn⟩) (hs0_1 ⟨n + 1, hn⟩) scM0_0 (Memref.isWhole_whole _) _ _ (blk m c ⟨n + 1, hn⟩)
      (outsAt0 m c n (Nat.lt_of_succ_lt hn)).2) i).trans ?_
    rw [Payload.pay2_apply, scratch_after m c n (Nat.lt_of_succ_lt hn) i, runSum_succ]
    rfl

/-- The contents the [1, 1] result array ends with: its one entry is the total. -/
abbrev res (c : Dev nD) : Buf (Elt Ideal) ((c : Thread nD τ).loc main_v2) := fun _ => total m c

/-- The one write-back, at the last point, writes the total. -/
theorem flushed_eq (c : Dev nD) (t : Fin cfg0.N) (hf : (cfg0.win 1).flush t = true) :
    (dats m 0 c).flushed 1 t = ((cfg0.win 1).blk t).view.read (Elt Ideal) (res m c) := by
  have hN : cfg0.N = 10 := N_0
  have h9 : t.val % 10 = 9 := (flush0_1 t).mp hf
  have hlast : t.val + 1 = cfg0.N := by have := t.isLt; omega
  funext y
  rw [View.read_apply]
  exact (congrFun (after0_1 m c t) _).trans ((out_last m c t h9 _).trans (runSum_last m c t.val t.isLt hlast))

/-- A [1, 1] array has one index. -/
theorem idx_unique (a b : S1x1.Idx) : a = b :=
  funext fun d => Fin.ext (by
    have ha := (a d).isLt
    have hb := (b d).isLt
    have hs : S1x1.size d = 1 := by fin_cases d <;> rfl
    omega)

/-- So the result array ends holding the total: the last point's block is the whole array. -/
theorem final (c : Dev nD) : (dats m 0 c).arrAt 1 cfg0.N = res m c :=
  (dats m 0 c).arrAt_eq_of_cover 1 (res m c) (flushed_eq m c) fun i =>
    ⟨t0_9, (flush0_1 t0_9).mpr rfl, by
      have hmem := ((cfg0.win 1).blk t0_9).view.emb_mem_set (Shape.Idx.first (s := S1x1) (by decide))
      rwa [idx_unique i _]⟩

/-- The host's recast of the [1, 1] array as a scalar keeps the entry: the result is the total. -/
theorem tail_eq (c : Dev nD) :
    Pipeline.afterTail₀ cfgs (dats m) 0 (V0 m) [hostOps1] c main_v3 = fun _ => total m c := by
  unfold Pipeline.afterTail₀
  show StableHlo.after hostOps1 _ (Proc.devRef .tc main_v3) = _
  after_results
  funext i
  exact congrFun ((Pipeline.withArrays_arr spec0 launch0.win.arr_inj c (V0 m c)
    (fun w => (dats m 0 c).arrAt w cfg0.N) 1).trans (final m c)) (Shape.reshapeEquiv shapeCasts_S1x1_S_ i)

/-- THE KERNEL'S RUN, read: every execution ends with the scalar result at the total of the ten blocks, the two
    arguments as they were. -/
theorem run : θ_run defs (onTc (τ := τ) (main (F := Ideal))) ⟨m, fun _ => 0, ρ⟩ fun r => ∀ c : Dev nD,
      r.2.mem ((c.tc : Thread nD τ).loc main_v3) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The total of the ten blocks is the sum of the values. -/
theorem total_eq (c : Dev nD) : total m c = sumVals m c :=
  sum_blocks m c

end Cert.KernelIdeal.Acc

end
-- ==== Proof.RefValue.lean ====
/-
  The reference's value. `jnp.sum(values)` is one host reduction of the 20,000,000 values from the initial value zero;
  over the extended reals its one entry is zero plus the sum of all the values, that is, their sum.
-/
import proofs.«172360_j73710228734303_1_alg».proof.Proof.Gen.ReferenceIdeal.Read
import Idealize.ShloMosaic.PureOps.Ideal.Laws

noncomputable section

open Idealize.ShloMosaic Idealize.SL.Sem

namespace Cert.ReferenceIdeal.RefValue

open Cert.ReferenceIdeal Cert.ReferenceIdeal.Gen

/-- The reduction from zero over the one axis is the sum of every entry. -/
theorem result_eq (x : (⟨S20000000, .f32⟩ : BufTy).Contents (Elt Ideal)) :
    Host.reduceAdd (F := Ideal) x (constant S_ .f32 0x00000000#32) reducesTo_S20000000_S_d0 h_S_
      = fun _ => ∑ k : S20000000.Idx, (x k : EReal) := by
  funext i
  rw [Read.val_main_v0_eq, Read.val_main_v0_apply, Read.val_main_cst_apply]
  show Ideal.ofBits .f32 0x00000000#32 + _ = _
  rw [Ideal.ofBits_zero_f32, zero_add]

end Cert.ReferenceIdeal.RefValue

end
-- ==== Proof.lean ====
/-
  The sum of the stored values of a sparse tensor. The reference adds up the 20,000,000 values in one reduction from
  zero. The kernel pads them with 971,520 zeros, lays them out as a [163840, 128] matrix, and walks its ten blocks of
  16384 rows: a one-entry accumulator is reset at the first block, receives each block's total in turn, and is written
  out after the last block; the host recasts that entry as the scalar result.

  Over the extended reals addition is commutative and associative and zero is its identity, so both programs compute
  the same number whatever the values are: the ten block totals add up to the matrix's total (each matrix entry lies in
  exactly one block), the matrix has the padded vector's entries, and the padding contributes only zeros. Nothing here
  needs the values to be finite.

  The three frames are the kernel's frame at the word level and over the extended reals, and the reference's run with
  its result dropped; the idealization rewrote nothing, so there is nothing to preserve; the value claim pairs the
  kernel's run, read at the sum of the values, with the reference's.
-/
import proofs.«172360_j73710228734303_1_alg».proof.Defs
import proofs.«172360_j73710228734303_1_alg».proof.Proof.Gen.Kernel
import proofs.«172360_j73710228734303_1_alg».proof.Proof.Gen.Kernel.Frame
import proofs.«172360_j73710228734303_1_alg».proof.Proof.Gen.KernelIdeal
import proofs.«172360_j73710228734303_1_alg».proof.Proof.Gen.KernelIdeal.Frame
import proofs.«172360_j73710228734303_1_alg».proof.Proof.Gen.ReferenceIdeal
import proofs.«172360_j73710228734303_1_alg».proof.Proof.Gen.ReferenceIdeal.Run
import proofs.«172360_j73710228734303_1_alg».proof.Proof.Gen.Pre_finite_inputs
import proofs.«172360_j73710228734303_1_alg».proof.Proof.KernelAcc
import proofs.«172360_j73710228734303_1_alg».proof.Proof.RefValue
import Idealize.ShloMosaic.Adequacy
import Idealize.ShloMosaic.Init

noncomputable section

namespace Cert.Proof

open Idealize.ShloMosaic Idealize.SL.Sem

/-- The word-level kernel terminates without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the sum of the values: the kernel as the total of its ten blocks, which is that sum, the
    reference as its one reduction from zero. -/
theorem algebraic : Cert.algebraic_KernelIdeal_ReferenceIdeal := by
  intro m ρ m' ρ' _ hagree
  refine ⟨fun c => fun _ => Cert.KernelIdeal.Input.sumVals m c, ?_, ?_⟩
  · exact (θ_run Cert.KernelIdeal.defs _ _).mono
      (fun _ h c => ⟨(h c).1.trans (congrArg (fun z : EReal => fun _ : Cert.KernelIdeal.S_.Idx => z)
        (Cert.KernelIdeal.Acc.total_eq m c)), (h c).2⟩) (Cert.KernelIdeal.Acc.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq _).trans ?_
    refine (congrArg (fun x : Cert.ReferenceIdeal.S20000000.Idx → EReal => fun _ : Cert.ReferenceIdeal.S_.Idx => ∑ k, x k)
      (hagree c).1).trans ?_
    exact congrArg (fun z : EReal => fun _ : Cert.KernelIdeal.S_.Idx => z) (Cert.KernelIdeal.Input.sumVals_def m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
